-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x7 : Shape := ⟨2, ![1600000, 7]⟩
abbrev S100000 : Shape := ⟨1, ![100000]⟩
abbrev S1600000x1 : Shape := ⟨2, ![1600000, 1]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x7 : S_.BroadcastsInDim S1600000x7 (![] : Fin 0 → Fin S1600000x7.rank)
  reducesTo_S1600000x7_S_d0_1 : S1600000x7.ReducesTo [0, 1] S_
  bcast_S_S100000 : S_.BroadcastsInDim S100000 (![] : Fin 0 → Fin S100000.rank)
  reducesTo_S100000_S_d0 : S100000.ReducesTo [0] S_
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg9 : FVec F S128 .f32) (main_arg10 : FVec F S1x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x7 .f32) (main_arg9 : FVec F S128 .f32) (main_arg10 : FVec F S1x128 .f32) (main_v13 : IVec S_ 1) (main_v16 : IVec S1600000x1 1) : IVec S_ 1 :=
  let main_c_5 : IVec S_ 1 := constantI S_ 1 1#1
  let main_v17 : IVec S_ 1 := (fun x v => Host.reduce IntOp.andi x v reducesTo_S1600000x1_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x7 .f32 := Host.absf main_arg8
  let main_cst_10 : FVec F S_ .f32 := constant S_ .f32 0x7F800000#32
  let main_v30 : FVec F S128x7 .f32 := broadcastInDim S128x7 ![] bcast_S_S128x7 main_cst_10
  let main_v31 : IVec S128x7 1 := cmpf .olt main_v29 main_v30
  let main_c_11 : IVec S_ 1 := constantI S_ 1 1#1
  let main_v32 : IVec S_ 1 := (fun x v => Host.reduce IntOp.andi x v reducesTo_S128x7_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : FVec F S1600000x7 .f32) (main_arg2 : FVec F S100000 .f32) (main_arg3 : FVec F S1600000x1 .f32) (main_arg4 : IVec S1600000 32) (main_arg5 : IVec S1600000 32) (main_arg6 : FVec F S128x128 .f32) (main_arg7 : FVec F S128 .f32) (main_arg8 : FVec F S128x7 .f32) (main_arg9 : FVec F S128 .f32) (main_arg10 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x7 .f32 := Host.absf main_arg1
  let main_cst_0 : FVec F S_ .f32 := constant S_ .f32 0x7F800000#32
  let main_v5 : FVec F S1600000x7 .f32 := broadcastInDim S1600000x7 ![] bcast_S_S1600000x7 main_cst_0
  let main_v6 : IVec S1600000x7 1 := cmpf .olt main_v4 main_v5
  let main_c_1 : IVec S_ 1 := constantI S_ 1 1#1
  let main_v7 : IVec S_ 1 := (fun x v => Host.reduce IntOp.andi x v reducesTo_S1600000x7_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1600000x1 .f32 := Host.absf main_arg3
  let main_cst_4 : FVec F S_ .f32 := constant S_ .f32 0x7F800000#32
  let main_v15 : FVec F S1600000x1 .f32 := broadcastInDim S1600000x1 ![] bcast_S_S1600000x1 main_cst_4
  let main_v16 : IVec S1600000x1 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000x7 : Shape := ⟨2, ![1600000, 7]⟩
abbrev S100000 : Shape := ⟨1, ![100000]⟩
abbrev S1600000x1 : Shape := ⟨2, ![1600000, 1]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S1x128 : Shape := ⟨2, ![1, 128]⟩
abbrev S7x128 : Shape := ⟨2, ![7, 128]⟩
abbrev S100000x1 : Shape := ⟨2, ![100000, 1]⟩
abbrev S7x1600000 : Shape := ⟨2, ![7, 1600000]⟩
abbrev S4000x128 : Shape := ⟨2, ![4000, 128]⟩
abbrev S4000x1 : Shape := ⟨2, ![4000, 1]⟩
abbrev S_ : Shape := ⟨0, ![]⟩
abbrev S1600000x128 : Shape := ⟨2, ![1600000, 128]⟩
abbrev S6400x128 : Shape := ⟨2, ![6400, 128]⟩
abbrev S7x6400 : Shape := ⟨2, ![7, 6400]⟩
abbrev S6400x1 : Shape := ⟨2, ![6400, 1]⟩

abbrev nBuf : Space → Nat
  | .hbm => 36
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S1600000x7, .f32⟩
  | .hbm, ⟨2, _⟩ => ⟨S100000, .f32⟩
  | .hbm, ⟨3, _⟩ => ⟨S1600000x1, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x7, .f32⟩
  | .hbm, ⟨9, _⟩ => ⟨S128, .f32⟩
  | .hbm, ⟨10, _⟩ => ⟨S1x128, .f32⟩
  | .hbm, ⟨11, _⟩ => ⟨S128x128, .f32⟩
  | .hbm, ⟨12, _⟩ => ⟨S7x128, .f32⟩
  | .hbm, ⟨13, _⟩ => ⟨S1x128, .f32⟩
  | .hbm, ⟨14, _⟩ => ⟨S1x128, .f32⟩
  | .hbm, ⟨15, _⟩ => ⟨S100000x1, .f32⟩
  | .hbm, ⟨16, _⟩ => ⟨S7x1600000, .f32⟩
  | .hbm, ⟨17, _⟩ => ⟨S7x1600000, .bf16⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .bf16⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S4000x1, .f32⟩
  | .local _ .vmem, ⟨6, _⟩ => ⟨S4000x1, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S6400x128, .f32⟩
  | .local _ .vmem, ⟨12, _⟩ => ⟨S6400x128, .f32⟩
  | .local _ .vmem, ⟨13, _⟩ => ⟨S7x6400, .bf16⟩
  | .local _ .vmem, ⟨14, _⟩ => ⟨S7x6400, .bf16⟩
  | .local _ .vmem, ⟨15, _⟩ => ⟨S6400x1, .f32⟩
  | .local _ .vmem, ⟨16, _⟩ => ⟨S6400x1, .f32⟩
  | .local _ .vmem, ⟨17, _⟩ => ⟨S7x128, .f32⟩
  | .local _ .vmem, ⟨18, _⟩ => ⟨S1x128, .f32⟩
  | .local _ .vmem, ⟨19, _⟩ => ⟨S6400x128, .bf16⟩
  | .local _ .vmem, ⟨20, _⟩ => ⟨S6400x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S7x6400 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S7x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  transposes_S128x7_S7x128_1_0 : S128x7.Transposes [1, 0] S7x128
  shapeCasts_S128_S1x128 : S128.ShapeCasts S1x128
  shapeCasts_S100000_S100000x1 : S100000.ShapeCasts S100000x1
  transposes_S1600000x7_S7x1600000_1_0 : S1600000x7.Transposes [1, 0] S7x1600000
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S7x6400_S7x6400_0_0 : ∀ a, (![0, 0] : Fin 2 → Nat) a + S7x6400.size a ≤ S7x6400.size a
  h_S7x6400 : 0 < S7x6400.numel
  shapeCasts_S7x6400_S7x6400 : S7x6400.ShapeCasts S7x6400
  inb_S7x128_S7x128_0_0 : ∀ a, (![0, 0] : Fin 2 → Nat) a + S7x128.size a ≤ S7x128.size a
  h_S7x128 : 0 < S7x128.numel
  shapeCasts_S7x128_S7x128 : S7x128.ShapeCasts S7x128
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  broadcasts_S6400x1_S6400x128 : S6400x1.Broadcasts S6400x128
  packedbf16_S6400x128_S6400x128_0_0 : (Rect.unit (s := S6400x128) ![0, 0] S6400x128.size inb_S6400x128_S6400x128_0_0).PackedRows (EltTy.packing .bf16)
  bcast_S_S100000x128 : S_.BroadcastsInDim S100000x128 (![] : Fin 0 → Fin S100000x128.rank)
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  dot_S7x6400_S7x128_S6400x128_0_0_1_1_n_n_wf : DotDims.WF S7x6400 S7x128 S6400x128 [0] [0] [1] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S1600000x128.size a
  hwx1_0 : ∀ i : grid1.Coords, EltTy.bits .f32 = 32 ∨ (Rect.block (s := S1600000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S7x6400.size a ≤ S7x1600000.size a
  hwx1_1 : ∀ i : grid1.Coords, EltTy.bits .bf16 = 32 ∨ (Rect.block (s := S7x1600000) S7x6400.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x1.size a ≤ S1600000x1.size a
  hwx1_2 : ∀ i : grid1.Coords, EltTy.bits .f32 = 32 ∨ (Rect.block (s := S1600000x1) S6400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S7x128.size a ≤ S7x128.size a
  hwx1_3 : ∀ i : grid1.Coords, EltTy.bits .f32 = 32 ∨ (Rect.block (s := S7x128) S7x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x128.size a ≤ S1600000x128.size a
  hwx1_5 : ∀ i : grid1.Coords, EltTy.bits .bf16 = 32 ∨ (Rect.block (s := S1600000x128) S6400x128.size (cc1_transform_5 i) (hinb1_5 i)).WholeWords (EltTy.packing .bf16)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S7x6400_S7x128_S6400x128_0_0_1_1_n_n : DotDims S7x6400 S7x128 S6400x128 where
  lhsContracting := [0]
  rhsContracting := [0]
  lhsNonContracting := [1]
  rhsNonContracting := [1]
  lhsBatch := []
  rhsBatch := []
  wf := dot_S7x6400_S7x128_S6400x128_0_0_1_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S7x6400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S7x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S6400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x7 : Shape := ⟨2, ![1600000, 7]⟩
abbrev S100000 : Shape := ⟨1, ![100000]⟩
abbrev S1600000x1 : Shape := ⟨2, ![1600000, 1]⟩
abbrev S1600000 : Shape := ⟨1, ![1600000]⟩
abbrev S128x128 : Shape := ⟨2, ![128, 128]⟩
abbrev S128 : Shape := ⟨1, ![128]⟩
abbrev S128x7 : Shape := ⟨2, ![128, 7]⟩
abbrev S1x128 : Shape := ⟨2, ![1, 128]⟩
abbrev S7x128 : Shape := ⟨2, ![7, 128]⟩
abbrev S1600000x128 : Shape := ⟨2, ![1600000, 128]⟩
abbrev S_ : Shape := ⟨0, ![]⟩
abbrev S100000x1 : Shape := ⟨2, ![100000, 1]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x7, .f32⟩
  | .hbm, ⟨2, _⟩ => ⟨S100000, .f32⟩
  | .hbm, ⟨3, _⟩ => ⟨S1600000x1, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x7, .f32⟩
  | .hbm, ⟨9, _⟩ => ⟨S128, .f32⟩
  | .hbm, ⟨10, _⟩ => ⟨S1x128, .f32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S7x128, .f32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x7_S7x128_1_0 : S128x7.Transposes [1, 0] S7x128
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  dot_S1600000x7_S7x128_S1600000x128_1_0_0_1_n_n_wf : DotDims.WF S1600000x7 S7x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x7_S7x128_S1600000x128_1_0_0_1_n_n : DotDims S1600000x7 S7x128 S1600000x128 where
  lhsContracting := [1]
  rhsContracting := [0]
  lhsNonContracting := [0]
  rhsNonContracting := [1]
  lhsBatch := []
  rhsBatch := []
  wf := dot_S1600000x7_S7x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibColDot.lean ====
/-
  A matrix product that contracts axis 0 of BOTH operands: the left operand is held transposed, [k × n], the right one
  [k × m], and entry (p, q) of the [n × m] result is the sum over the contracted coordinate κ of left (κ, p) times
  right (κ, q) — column p of the left matrix against column q of the right one. On the MXU into a zero accumulator it
  reads at (p, q) as exactly that sum, whatever the operands' formats: at the extended reals a change of format is the
  identity.
-/
import Idealize.ShloMosaic.PureOps.Ideal
import Idealize.ShloMosaic.PureOps.Ideal.Laws
import Idealize.ShloMosaic.Lib.ValueIdx

noncomputable section

open scoped BigOperators

namespace Idealize.ShloMosaic.ColDotSpec

open Idealize.ShloMosaic Idealize.ShloMosaic.ValueIdx

/-- Column `p` of `a` (a [k × n] matrix) against column `q` of `w` (a [k × m] matrix). -/
def colDot {n k m : Nat} (a : (⟨2, ![k, n]⟩ : Shape).Idx → EReal) (w : (⟨2, ![k, m]⟩ : Shape).Idx → EReal)
    (p : Fin n) (q : Fin m) : EReal :=
  ∑ κ : Fin k, a (ix2 κ p) * w (ix2 κ q)

/-- Dimension numbers of a [k × n]ᵀ · [k × m] product: one contracted axis of extent `k`, the left operand read at
    (κ, row), the right at (κ, column). -/
structure ColDot {n k m : Nat} (d : DotDims ⟨2, ![k, n]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx) (h : 0 < d.contr.rank), (d.lhsIdx i q 0).val = (q ⟨0, h⟩).val
  l1 : ∀ (i : (⟨2, ![n, m]⟩ : Shape).Idx) (q : d.contr.Idx), (d.lhsIdx i q 1).val = (i 0).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![k, n]⟩ ⟨2, ![k, m]⟩ ⟨2, ![n, m]⟩}

/-- The contracted sum, re-indexed by the contracted axis's coordinate. -/
theorem ColDot.sum_eq (hd : ColDot d) (a : (⟨2, ![k, n]⟩ : Shape).Idx → EReal) (w : (⟨2, ![k, m]⟩ : Shape).Idx → EReal)
    (j : (⟨2, ![n, m]⟩ : Shape).Idx) :
    ∑ q : d.contr.Idx, a (d.lhsIdx j q) * w (d.rhsIdx j q) = colDot a w (j 0) (j 1) := by
  have h0 : 0 < d.contr.rank := by rw [hd.rank]; exact Nat.one_pos
  unfold colDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 κ (j 0) := funext fun a => Fin.ext (by
    match a with
    | ⟨0, _⟩ => exact (hd.l0 _ _ h0).trans hk
    | ⟨1, _⟩ => exact hd.l1 _ _)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): column `p` of the left operand against column `q` of the
    right one. -/
theorem matmul_zero_colAt {φ₁ φ₂ : FTy} (hd : ColDot d) (prec : Option ContractPrecision) (a : FVec Ideal ⟨2, ![k, n]⟩ φ₁)
    (w : FVec Ideal ⟨2, ![k, m]⟩ φ₂) (j : (⟨2, ![n, m]⟩ : Shape).Idx) :
    FloatOps.matmul d prec a w (constant ⟨2, ![n, m]⟩ .f32 0x00000000#32) j = colDot (fun i => a i) (fun i => w i) (j 0) (j 1) := by
  rw [Ideal.matmul_constant_zero_apply]
  exact hd.sum_eq (fun i => a i) (fun i => w i) j

end

end Idealize.ShloMosaic.ColDotSpec

end
-- ==== Proof.GraphConvSpec.lean ====
/-
  The graph convolution both programs compute, index by index on the extended reals.

  With N = 100000 nodes, E = 1600000 edges, F = 128 features and 7 edge features:
    * the node layer      h[p, q] = Σ_κ x[p, κ] · Wᵀ[κ, q] + b[q]                                  (`nodeLin`);
    * the root term       max (h[p, q] + r[q]) 0 / deg[p]                                          (`rootTerm`);
    * an edge's message   norm[e] · max (g[e, q] + (Σ_κ ef[e, κ] · Weᵀ[κ, q] + be[q])) 0            (`edgeMsg`),
      where g is the node layer's rows gathered at the edges' sources.
  The result is the messages summed into their destination rows plus the root term; the gather and the scatter-add
  are the same operations of the same arguments in both programs and are never opened here.
  The zero of the two rectifiers is kept as the f32 word 0x00000000 both programs print.
-/
import Idealize.ShloMosaic.PureOps.Ideal
import Idealize.ShloMosaic.PureOps.Ideal.Laws
import Idealize.ShloMosaic.Lib.ValueIdx
import proofs.«419464_j20864951124336_3_alg».proof.Proof.LibSageSpec
import proofs.«419464_j20864951124336_3_alg».proof.Proof.LibColDot

noncomputable section

open scoped BigOperators

namespace Cert.GraphConv

open Idealize.ShloMosaic Idealize.ShloMosaic.ValueIdx Idealize.ShloMosaic.SageSpec Idealize.ShloMosaic.ColDotSpec

/-- The node layer: row `p` of the features against column `q` of the transposed weights, plus the bias. -/
def nodeLin (x : Mat 100000 128) (Wt : Mat 128 128) (b : Fin 128 → EReal) : Mat 100000 128 := linF x Wt b

/-- The root term: the rectified node layer shifted by the root embedding, divided by the node's degree. -/
def rootTerm (h : Mat 100000 128) (r : Fin 128 → EReal) (deg : Fin 100000 → EReal) : Mat 100000 128 :=
  fun i => Ideal.div (max (h i + r (i 1)) (Ideal.ofBits .f32 0x00000000#32)) (deg (i 0))

/-- An edge's message: the gathered source row plus the edge layer, rectified, scaled by the edge's norm. -/
def edgeMsg (g : Mat 1600000 128) (ef : Mat 1600000 7) (Wet : Mat 7 128) (be : Fin 128 → EReal)
    (nrm : Fin 1600000 → EReal) : Mat 1600000 128 :=
  fun i => nrm (i 0) * max (g i + (rowDot ef Wet (i 0) (i 1) + be (i 1))) (Ideal.ofBits .f32 0x00000000#32)

/-- The edge layer's product read off the transposed edge features: column `e` of the [7 × E] matrix against column
    `q` of the transposed weights is row `e` of the [E × 7] matrix against that column. -/
theorem colDot_transposed {n k m : Nat} (efT : (⟨2, ![k, n]⟩ : Shape).Idx → EReal) (w : Mat k m) (p : Fin n) (q : Fin m) :
    colDot efT w p q = rowDot (fun i : (⟨2, ![n, k]⟩ : Shape).Idx => efT (ix2 (i 1) (i 0))) w p q := rfl

end Cert.GraphConv

end
-- ==== Proof.NodeValue.lean ====
import proofs.«419464_j20864951124336_3_alg».proof.Proof.Gen.KernelIdeal.Frame
import proofs.«419464_j20864951124336_3_alg».proof.Proof.GraphConvSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Cert.GraphConv
open Idealize.ShloMosaic Idealize.ShloMosaic.TcCoe Idealize.ShloMosaic.ValueIdx Idealize.ShloMosaic.SageSpec Idealize.SL.Sem
open Idealize.ShloMosaic.Pipeline (Dat)

variable (V : (c : Dev nD) → (b : Ref sig .tc) → Buf (Elt Ideal) ((c : Thread nD τ).loc b))

/-- The node layer of the arrays as the first region finds them. -/
def hEntry (c : Dev nD) : Mat 100000 128 :=
  nodeLin (fun i => V c main_arg0 i) (fun i => V c main_v0 i) (fun q => V c main_v2 (ix2 0 q))

/-! ## The payloads at an index

A block of the first call is 4000 rows. Its first payload is the block's rows against the whole transposed weight
matrix, plus the bias row; its second payload adds the root embedding's row, rectifies against the zero word and divides
by the row's degree. Both are read here at row `p`, column `q` of the block, over arbitrary blocks. -/

/-- The offsets of an access to a whole block, all zero. -/
theorem zero_off : (![0, 0] : Fin 2 → Nat) = fun _ => 0 := funext fun a => by fin_cases a <;> rfl

/-- The product's left operand is read at the result's row. -/
theorem lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The product's left operand is read at the contracted coordinate on its second axis. -/
theorem lhs_contr (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
/-- The product's right operand is read at the contracted coordinate on its first axis. -/
theorem rhs_contr (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
/-- The product's right operand is read at the result's column. -/
theorem rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block's product is a plain rows-by-columns one: one contracted axis of extent 128. -/
theorem blockDot_plain : PlainDot dot_S4000x128_S128x128_S4000x128_1_0_0_1_n_n where
  rank := rfl
  size := fun _ => rfl
  l0 := lhs_row
  l1 := fun i k _ => lhs_contr i k
  r0 := fun i k _ => rhs_contr i k
  r1 := rhs_col

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row against a column, plus a scalar, depends only on that row, that column and that scalar. -/
theorem rowDot_add_congr {n N k m : Nat} (x : Mat n k) (X : Mat N k) (w W : Mat k m) (p : Fin n) (P : Fin N) (q : Fin m) (b B : EReal)
    (hx : ∀ κ : Fin k, x (ix2 p κ) = X (ix2 P κ)) (hw : ∀ κ : Fin k, w (ix2 κ q) = W (ix2 κ q)) (hb : b = B) :
    rowDot x w p q + b = rowDot X W P q + B := by
  subst hb
  unfold rowDot
  congr 1
  exact Finset.sum_congr rfl fun κ _ => by rw [hx κ, hw κ]

/-- The first payload at `(p, q)`: row `p` of the feature block against column `q` of the weight block, plus the bias
    row's entry `q`. The operands' change of format is the identity on the extended reals. -/
theorem nodeBlock_at (x : Vec Ideal S4000x128 .f32) (Wt : Vec Ideal S128x128 .f32) (b2 : Vec Ideal S1x128 .f32) (p : Fin 4000) (q : Fin 128) :
    k0_pay1 (F := Ideal) x Wt b2 (ix2 p q) = rowDot (fun i => x i) (fun i => Wt i) p q + b2 (ix2 0 q) := by
  unfold k0_pay1
  show (FloatOps.matmul (F := Ideal) dot_S4000x128_S128x128_S4000x128_1_0_0_1_n_n none (truncf .bf16 (x : FVec Ideal S4000x128 .f32) bitsLt_bf16_f32)
        (truncf .bf16 (shapeCast S128x128 (Wt : FVec Ideal S128x128 .f32) shapeCasts_S128x128_S128x128) bitsLt_bf16_f32) (constant (F := Ideal) S4000x128 .f32 0x00000000#32) (ix2 p q) : EReal)
      + (broadcastTo S4000x128 (shapeCast S1x128 b2 shapeCasts_S1x128_S1x128) broadcasts_S1x128_S4000x128 (ix2 p q) : EReal) = _
  rw [shapeCast_self, shapeCast_self, matmul_zero_at blockDot_plain, broadcastTo_1b_ab_apply]
  rfl

/-- The second payload at `(p, q)`: the first payload plus the root embedding's entry `q`, rectified against the zero
    word, divided by the degree column's entry of row `p`. -/
theorem rootBlock_at (x : Vec Ideal S4000x128 .f32) (Wt : Vec Ideal S128x128 .f32) (b2 : Vec Ideal S1x128 .f32)
    (r : Vec Ideal S1x128 .f32) (dg : Vec Ideal S4000x1 .f32) (p : Fin 4000) (q : Fin 128) :
    k0_pay2 (F := Ideal) x Wt b2 r dg (ix2 p q)
      = Ideal.div (max (k0_pay1 (F := Ideal) x Wt b2 (ix2 p q) + r (ix2 0 q)) (Ideal.ofBits .f32 0x00000000#32)) (dg (ix2 p 0)) := by
  unfold k0_pay2
  show Ideal.div (max ((k0_pay1 (F := Ideal) x Wt b2 (ix2 p q) : EReal) + (broadcastTo S4000x128 r broadcasts_S1x128_S4000x128 (ix2 p q) : EReal)) (Ideal.ofBits .f32 0x00000000#32))
      (broadcastTo S4000x128 (shapeCast S4000x1 dg shapeCasts_S4000x1_S4000x1) broadcasts_S4000x1_S4000x128 (ix2 p q) : EReal) = _
  rw [shapeCast_self, broadcastTo_1b_ab_apply, broadcastTo_a1_ab_apply]

/-! ## The windows' blocks as rows of the arrays

Point `t` of the 25 works on rows `4000 t … 4000 t + 3999`: the feature, degree and the two result windows sit at block
`(t, 0)`; the weights, the bias row and the root embedding's row are whole, at block `(0, 0)`. A block's coordinate on an
axis is always block index times block size plus the coordinate inside the block. -/

/-- The printed index maps at a point, decided over the grid's 25 points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature block at point `t`, row `p`: row `4000 t + p` of the features. -/
theorem featBlock_at (c : Dev nD) (t : Fin cfg0.N) (p : Fin 4000) (κ : Fin 128) (P : Fin 100000) (hP : P.val = t.val * 4000 + p.val) :
    (iblk0 V c 0 t : Vec Ideal S4000x128 .f32) (ix2 p κ) = (V c main_arg0 : S100000x128.Idx → EReal) (ix2 P κ) := by
  obtain ⟨e0, e1, -⟩ := index_facts t
  unfold iblk0
  rw [View.read_apply]
  show V c main_arg0 _ = V c main_arg0 _
  congr 1
  funext a; apply Fin.ext
  match a with
  | ⟨0, _⟩ => show win0_0.index t (0 : Fin 2) * 4000 + 1 * p.val = P.val; rw [e0, hP]; omega
  | ⟨1, _⟩ => show win0_0.index t (1 : Fin 2) * 128 + 1 * κ.val = κ.val; rw [e1]; omega

/-- The weight block at any point is the whole transposed weight matrix. -/
theorem weightBlock_at (c : Dev nD) (t : Fin cfg0.N) (κ q : Fin 128) :
    (iblk0 V c 1 t : Vec Ideal S128x128 .f32) (ix2 κ q) = (V c main_v0 : S128x128.Idx → EReal) (ix2 κ q) := by
  obtain ⟨-, -, e0, e1, -⟩ := index_facts t
  unfold iblk0
  rw [View.read_apply]
  show V c main_v0 _ = V c main_v0 _
  congr 1
  funext a; apply Fin.ext
  match a with
  | ⟨0, _⟩ => show win0_1.index t (0 : Fin 2) * 128 + 1 * κ.val = κ.val; rw [e0]; omega
  | ⟨1, _⟩ => show win0_1.index t (1 : Fin 2) * 128 + 1 * q.val = q.val; rw [e1]; omega

/-- The bias block at any point is the whole bias row. -/
theorem biasBlock_at (c : Dev nD) (t : Fin cfg0.N) (q : Fin 128) :
    (iblk0 V c 2 t : Vec Ideal S1x128 .f32) (ix2 0 q) = (V c main_v2 : S1x128.Idx → EReal) (ix2 0 q) := by
  obtain ⟨-, -, -, -, e0, e1, -⟩ := index_facts t
  unfold iblk0
  rw [View.read_apply]
  show V c main_v2 _ = V c main_v2 _
  congr 1
  funext a; apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- The root embedding's block at any point is its whole row. -/
theorem rootRowBlock_at (c : Dev nD) (t : Fin cfg0.N) (q : Fin 128) :
    (iblk0 V c 3 t : Vec Ideal S1x128 .f32) (ix2 0 q) = (V c main_arg10 : S1x128.Idx → EReal) (ix2 0 q) := by
  obtain ⟨-, -, -, -, -, -, e0, e1, -⟩ := index_facts t
  unfold iblk0
  rw [View.read_apply]
  show V c main_arg10 _ = V c main_arg10 _
  congr 1
  funext a; apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-- The degree block at point `t`, row `p`: the degree of node `4000 t + p`. -/
theorem degBlock_at (c : Dev nD) (t : Fin cfg0.N) (p : Fin 4000) (P : Fin 100000) (hP : P.val = t.val * 4000 + p.val) :
    (iblk0 V c 4 t : Vec Ideal S4000x1 .f32) (ix2 p 0) = (V c main_v4 : S100000x1.Idx → EReal) (ix2 P 0) := by
  obtain ⟨-, -, -, -, -, -, -, -, e0, e1, -⟩ := index_facts t
  unfold iblk0
  rw [View.read_apply]
  show V c main_v4 _ = V c main_v4 _
  congr 1
  funext a; apply Fin.ext
  match a with
  | ⟨0, _⟩ => show win0_4.index t (0 : Fin 2) * 4000 + 1 * p.val = P.val; rw [e0, hP]; omega
  | ⟨1, _⟩ => show win0_4.index t (1 : Fin 2) * 1 + 1 * 0 = 0; rw [e1]

/-! ## From the blocks to the arrays

What point `t` writes back into either result window is block `t` of one function of the arrays as the region finds them,
and the 25 blocks tile the 100000 rows: row `r` is in the block of point `r / 4000`. -/

/-- The first payload over the windows' blocks at point `t`, at row `p` of the block, is the node layer at row `4000 t + p`. -/
theorem nodeBlock_rows (c : Dev nD) (t : Fin cfg0.N) (p : Fin 4000) (q : Fin 128) (P : Fin 100000) (hP : P.val = t.val * 4000 + p.val) :
    k0_pay1 (F := Ideal) (iblk0 V c 0 t) (iblk0 V c 1 t) (iblk0 V c 2 t) (ix2 p q) = hEntry V c (ix2 P q) := by
  refine (nodeBlock_at (iblk0 V c 0 t) (iblk0 V c 1 t) (iblk0 V c 2 t) p q).trans ?_
  exact rowDot_add_congr (fun i => iblk0 V c 0 t i) (fun i => V c main_arg0 i) (fun i => iblk0 V c 1 t i) (fun i => V c main_v0 i) p P q _ _
    (fun κ => featBlock_at V c t p κ P hP) (fun κ => weightBlock_at V c t κ q) (biasBlock_at V c t q)

/-- The second payload over the windows' blocks at point `t`, at row `p` of the block, is the root term at row `4000 t + p`. -/
theorem rootBlock_rows (c : Dev nD) (t : Fin cfg0.N) (p : Fin 4000) (q : Fin 128) (P : Fin 100000) (hP : P.val = t.val * 4000 + p.val) :
    k0_pay2 (F := Ideal) (iblk0 V c 0 t) (iblk0 V c 1 t) (iblk0 V c 2 t) (iblk0 V c 3 t) (iblk0 V c 4 t) (ix2 p q)
      = rootTerm (hEntry V c) (fun q => V c main_arg10 (ix2 0 q)) (fun p => V c main_v4 (ix2 p 0)) (ix2 P q) := by
  refine (rootBlock_at (iblk0 V c 0 t) (iblk0 V c 1 t) (iblk0 V c 2 t) (iblk0 V c 3 t) (iblk0 V c 4 t) p q).trans ?_
  rw [nodeBlock_rows V c t p q P hP, rootRowBlock_at V c t q, degBlock_at V c t p P hP]
  rfl

/-- The element of the node layer's result array under row `p`, column `q` of point `t`'s block. -/
theorem nodeEmb_at (t : Fin cfg0.N) (p : Fin 4000) (q : Fin 128) (P : Fin 100000) (hP : P.val = t.val * 4000 + p.val) :
    ((cfg0.win 5).blk t).view.emb (ix2 p q) = (ix2 P q : S100000x128.Idx) := by
  obtain ⟨-, -, -, -, -, -, -, -, -, -, e0, e1, -⟩ := index_facts t
  funext a; apply Fin.ext
  match a with
  | ⟨0, _⟩ => show win0_5.index t (0 : Fin 2) * 4000 + 1 * p.val = P.val; rw [e0, hP]; omega
  | ⟨1, _⟩ => show win0_5.index t (1 : Fin 2) * 128 + 1 * q.val = q.val; rw [e1]; omega

/-- The element of the root term's result array under row `p`, column `q` of point `t`'s block. -/
theorem rootEmb_at (t : Fin cfg0.N) (p : Fin 4000) (q : Fin 128) (P : Fin 100000) (hP : P.val = t.val * 4000 + p.val) :
    ((cfg0.win 6).blk t).view.emb (ix2 p q) = (ix2 P q : S100000x128.Idx) := by
  obtain ⟨-, -, -, -, -, -, -, -, -, -, -, -, e0, e1⟩ := index_facts t
  funext a; apply Fin.ext
  match a with
  | ⟨0, _⟩ => show win0_6.index t (0 : Fin 2) * 4000 + 1 * p.val = P.val; rw [e0, hP]; omega
  | ⟨1, _⟩ => show win0_6.index t (1 : Fin 2) * 128 + 1 * q.val = q.val; rw [e1]; omega

/-- A row of point `t`'s block is a row of the array. -/
theorem row_of_block (t : Fin cfg0.N) (p : Fin 4000) : ∃ P : Fin 100000, P.val = t.val * 4000 + p.val := by
  have ht : t.val < 25 := lt_of_lt_of_eq t.isLt N_0
  exact ⟨⟨t.val * 4000 + p.val, by have := p.isLt; omega⟩, rfl⟩

/-- What point `t` writes back into the first result window is block `t` of the node layer. -/
theorem nodeLin_block (c : Dev nD) (t : Fin cfg0.N) :
    (dat0 (F := Ideal) V c).flushed 5 t = ((cfg0.win 5).blk t).view.read (Elt Ideal) (hEntry V c) := by
  show (cfg0.win 5).cut (grid0.coords t) ((dat0 (F := Ideal) V c).after 5 t) = _
  rw [after0_5]
  unfold out0_5
  rw [View.canon_unit_zero zero_off]
  simp only [View.ld_unit_zero (S := S4000x128) zero_off, View.ld_unit_zero (S := S128x128) zero_off, View.ld_unit_zero (S := S1x128) zero_off]
  funext j
  obtain ⟨p, q, rfl⟩ : ∃ (p : Fin 4000) (q : Fin 128), j = ix2 p q := ⟨j 0, j 1, eq_ix2 (n0 := 4000) (n1 := 128) j⟩
  obtain ⟨P, hP⟩ := row_of_block t p
  show k0_pay1 (F := Ideal) (iblk0 V c 0 t) (iblk0 V c 1 t) (iblk0 V c 2 t) (ix2 p q) = hEntry V c (((cfg0.win 5).blk t).view.emb (ix2 p q))
  rw [nodeEmb_at t p q P hP]
  exact nodeBlock_rows V c t p q P hP

/-- What point `t` writes back into the second result window is block `t` of the root term. -/
theorem rootTerm_block (c : Dev nD) (t : Fin cfg0.N) :
    (dat0 (F := Ideal) V c).flushed 6 t = ((cfg0.win 6).blk t).view.read (Elt Ideal)
      (rootTerm (hEntry V c) (fun q => V c main_arg10 (ix2 0 q)) (fun p => V c main_v4 (ix2 p 0))) := by
  show (cfg0.win 6).cut (grid0.coords t) ((dat0 (F := Ideal) V c).after 6 t) = _
  rw [after0_6]
  unfold out0_6
  rw [View.canon_unit_zero zero_off]
  simp only [View.ld_unit_zero (S := S4000x128) zero_off, View.ld_unit_zero (S := S128x128) zero_off, View.ld_unit_zero (S := S1x128) zero_off, View.ld_unit_zero (S := S4000x1) zero_off]
  funext j
  obtain ⟨p, q, rfl⟩ : ∃ (p : Fin 4000) (q : Fin 128), j = ix2 p q := ⟨j 0, j 1, eq_ix2 (n0 := 4000) (n1 := 128) j⟩
  obtain ⟨P, hP⟩ := row_of_block t p
  show k0_pay2 (F := Ideal) (iblk0 V c 0 t) (iblk0 V c 1 t) (iblk0 V c 2 t) (iblk0 V c 3 t) (iblk0 V c 4 t) (ix2 p q)
      = rootTerm (hEntry V c) (fun q => V c main_arg10 (ix2 0 q)) (fun p => V c main_v4 (ix2 p 0)) (((cfg0.win 6).blk t).view.emb (ix2 p q))
  rw [rootEmb_at t p q P hP]
  exact rootBlock_rows V c t p q P hP

/-- An index of the first result array is in point `t`'s block iff each coordinate is in the block's range on its axis. -/
theorem mem_nodeBlock (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v7_0).slice (win0_5.rect t)).set ↔ _
  rw [View.set_slice_whole, Rect.mem_set_unit]
  exact Iff.rfl

/-- The same for the second result array. -/
theorem mem_rootBlock (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v7_1).slice (win0_6.rect t)).set ↔ _
  rw [View.set_slice_whole, Rect.mem_set_unit]
  exact Iff.rfl

/-- The point whose blocks hold row `r`: `r / 4000`. -/
theorem point_of_row (i : S100000x128.Idx) : ∃ t : Fin cfg0.N, t.val = (i 0).val / 4000 := by
  have hN : cfg0.N = 25 := N_0
  have h0 : (i 0).val < 100000 := (i 0).isLt
  exact ⟨⟨(i 0).val / 4000, by rw [hN]; omega⟩, rfl⟩

/-- Every index of the first result array is in some point's block, and every point writes its block back. -/
theorem nodeLin_cover (i : S100000x128.Idx) : ∃ t : Fin cfg0.N, (cfg0.win 5).flush t = true ∧ i ∈ ((cfg0.win 5).blk t).view.set := by
  have h0 : (i 0).val < 100000 := (i 0).isLt
  have h1 : (i 1).val < 128 := (i 1).isLt
  obtain ⟨t, ht⟩ := point_of_row i
  obtain ⟨-, -, -, -, -, -, -, -, -, -, e0, e1, -⟩ := index_facts t
  refine ⟨t, flush0_5 t, ?_⟩
  rw [mem_nodeBlock]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 128 ≤ (i 1).val ∧ (i 1).val < win0_5.index t (1 : Fin 2) * 128 + 128; rw [e1]; omega

/-- Every index of the second result array is in some point's block, and every point writes its block back. -/
theorem rootTerm_cover (i : S100000x128.Idx) : ∃ t : Fin cfg0.N, (cfg0.win 6).flush t = true ∧ i ∈ ((cfg0.win 6).blk t).view.set := by
  have h0 : (i 0).val < 100000 := (i 0).isLt
  have h1 : (i 1).val < 128 := (i 1).isLt
  obtain ⟨t, ht⟩ := point_of_row i
  obtain ⟨-, -, -, -, -, -, -, -, -, -, -, -, e0, e1⟩ := index_facts t
  refine ⟨t, flush0_6 t, ?_⟩
  rw [mem_rootBlock]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- The first result array after the region: the node layer of the arrays as the region finds them. -/
theorem nodeLin_final (c : Dev nD) : (dat0 (F := Ideal) V c).arrAt 5 cfg0.N = hEntry V c :=
  (dat0 (F := Ideal) V c).arrAt_eq_of_cover 5 (hEntry V c) (fun t _ => nodeLin_block V c t) nodeLin_cover

/-- The second result array after the region: the root term of that node layer, the root embedding and the degrees. -/
theorem rootTerm_final (c : Dev nD) : (dat0 (F := Ideal) V c).arrAt 6 cfg0.N
    = rootTerm (hEntry V c) (fun q => V c main_arg10 (ix2 0 q)) (fun p => V c main_v4 (ix2 p 0)) :=
  (dat0 (F := Ideal) V c).arrAt_eq_of_cover 6 _ (fun t _ => rootTerm_block V c t) rootTerm_cover

end Cert.KernelIdeal.NodeValue

end
-- ==== Proof.EdgeValue.lean ====
/-
  The second kernel's output array as ONE function of the arrays it reads, index by index on the extended reals.

  The kernel walks the 1600000 edges in 250 blocks of 6400. At block t it reads rows 6400·t … 6400·t + 6399 of the gathered
  source rows g (a [6400 × 128] block) and of the norms (a [6400 × 1] block), COLUMNS 6400·t … 6400·t + 6399 of the edge
  features held transposed, [7 × 1600000] (a [7 × 6400] block: this window moves along axis 1), and the whole of the
  transposed edge weights [7 × 128] and of the edge bias [1 × 128]. It writes back the [6400 × 128] block whose entry
  (p, q) is
      norm[p] · max (g[p, q] + (Σ_κ efᵀ[κ, p] · Weᵀ[κ, q] + be[q])) 0,
  the product being the MXU's into a zero accumulator, contracting axis 0 of both operands: column p of the feature block
  against column q of the weights. Read at the array's row r = 6400·t + p that is the specification's edge message at
  (r, q), the column sum being the row sum of the un-transposed features. The 250 blocks tile the array, every one is
  written back, so the array ends holding the edge messages everywhere.
-/
import proofs.«419464_j20864951124336_3_alg».proof.Proof.Gen.KernelIdeal.Frame
import proofs.«419464_j20864951124336_3_alg».proof.Proof.GraphConvSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeValue

open Cert.KernelIdeal Cert.KernelIdeal.Gen Cert.GraphConv
open Idealize.ShloMosaic Idealize.ShloMosaic.TcCoe Idealize.ShloMosaic.ValueIdx Idealize.ShloMosaic.SageSpec Idealize.ShloMosaic.ColDotSpec Idealize.SL.Sem
open Idealize.ShloMosaic.Pipeline (Dat)

/-! ## The edge layer's product: column against column -/

/-- On the left operand's contracted axis (its axis 0) the index is the contraction's coordinate. -/
theorem edgeDot_lhs_0 (i : S6400x128.Idx) (q : dot_S7x6400_S7x128_S6400x128_0_0_1_1_n_n.contr.Idx) :
    (dot_S7x6400_S7x128_S6400x128_0_0_1_1_n_n.lhsIdx i q 0).val = (q ⟨0, by decide⟩).val :=
  dot_S7x6400_S7x128_S6400x128_0_0_1_1_n_n.lhsIdx_val_of_single rfl i q
/-- On the left operand's kept axis (its axis 1) the index is the result's row. -/
theorem edgeDot_lhs_1 (i : S6400x128.Idx) (q : dot_S7x6400_S7x128_S6400x128_0_0_1_1_n_n.contr.Idx) :
    (dot_S7x6400_S7x128_S6400x128_0_0_1_1_n_n.lhsIdx i q 1).val = (i 0).val := by
  unfold DotDims.lhsIdx
  rw [dif_neg (show ¬(1 : Fin S7x6400.rank) ∈ dot_S7x6400_S7x128_S6400x128_0_0_1_1_n_n.lhsBatch by decide), dif_pos (show (1 : Fin S7x6400.rank) ∈ dot_S7x6400_S7x128_S6400x128_0_0_1_1_n_n.lhsNonContracting by decide)]
  rfl
/-- On the right operand's contracted axis (its axis 0) the index is the contraction's coordinate. -/
theorem edgeDot_rhs_0 (i : S6400x128.Idx) (q : dot_S7x6400_S7x128_S6400x128_0_0_1_1_n_n.contr.Idx) :
    (dot_S7x6400_S7x128_S6400x128_0_0_1_1_n_n.rhsIdx i q 0).val = (q ⟨0, by decide⟩).val :=
  dot_S7x6400_S7x128_S6400x128_0_0_1_1_n_n.rhsIdx_val_of_single rfl i q
/-- On the right operand's kept axis (its axis 1) the index is the result's column. -/
theorem edgeDot_rhs_1 (i : S6400x128.Idx) (q : dot_S7x6400_S7x128_S6400x128_0_0_1_1_n_n.contr.Idx) :
    (dot_S7x6400_S7x128_S6400x128_0_0_1_1_n_n.rhsIdx i q 1).val = (i 1).val := by
  unfold DotDims.rhsIdx
  rw [dif_neg (show ¬(1 : Fin S7x128.rank) ∈ dot_S7x6400_S7x128_S6400x128_0_0_1_1_n_n.rhsBatch by decide), dif_pos (show (1 : Fin S7x128.rank) ∈ dot_S7x6400_S7x128_S6400x128_0_0_1_1_n_n.rhsNonContracting by decide)]
  rfl

/-- The kernel's product is a [7 × 6400]ᵀ · [7 × 128] one: one contracted axis of extent 7, axis 0 of both operands. -/
theorem edgeDot : ColDot dot_S7x6400_S7x128_S6400x128_0_0_1_1_n_n where
  rank := rfl
  size := fun _ => rfl
  l0 := fun i q _ => edgeDot_lhs_0 i q
  l1 := edgeDot_lhs_1
  r0 := fun i q _ => edgeDot_rhs_0 i q
  r1 := edgeDot_rhs_1

/-! ## The block the body stores, at an index -/

/-- The whole-block rectangle's offsets are zero on both axes. -/
theorem zero_offsets : (![0, 0] : Fin 2 → Nat) = fun _ => 0 := funext fun a => by fin_cases a <;> rfl

/-- A column [a × 1] broadcast to [a × b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of the stored block, from the five loaded blocks: the norm at row p times the rectified sum of the source
    row's entry, column p of the transposed features against column q of the weights, and the bias at q. The changes of
    format and the same-shape casts are identities on the extended reals. -/
theorem message_at (g : Vec Ideal S6400x128 .f32) (efT : Vec Ideal S7x6400 .bf16) (Wet : Vec Ideal S7x128 .f32)
    (be2 : Vec Ideal S1x128 .f32) (nrm : Vec Ideal S6400x1 .f32) (p : Fin 6400) (q : Fin 128) :
    k1_pay1 (F := Ideal) g efT Wet be2 nrm (ix2 p q)
      = nrm (ix2 p (0 : Fin 1))
        * max (g (ix2 p q) + (colDot (fun i => efT i) (fun i => Wet i) p q + be2 (ix2 (0 : Fin 1) q)))
            (Ideal.ofBits .f32 0x00000000#32) := by
  unfold k1_pay1
  show broadcastTo S6400x128 nrm broadcasts_S6400x1_S6400x128 (ix2 p q)
      * max (shapeCast S6400x128 g shapeCasts_S6400x128_S6400x128 (ix2 p q)
          + (FloatOps.matmul dot_S7x6400_S7x128_S6400x128_0_0_1_1_n_n none (shapeCast S7x6400 efT shapeCasts_S7x6400_S7x6400)
                (truncf .bf16 (shapeCast S7x128 Wet shapeCasts_S7x128_S7x128) bitsLt_bf16_f32)
                (constant (F := Ideal) S6400x128 .f32 0x00000000#32) (ix2 p q)
             + broadcastTo S6400x128 (shapeCast S1x128 be2 shapeCasts_S1x128_S1x128) broadcasts_S1x128_S6400x128 (ix2 p q)))
          (Ideal.ofBits .f32 0x00000000#32) = _
  rw [shapeCast_self g, shapeCast_self efT, shapeCast_self Wet, shapeCast_self be2,
    broadcastTo_a1_ab_apply nrm, broadcastTo_1b_ab_apply be2, matmul_zero_colAt edgeDot]
  rfl

/-! ## The blocks and the arrays -/

variable (V : (c : Dev nD) → (b : Ref sig .tc) → Buf (Elt Ideal) ((c : Thread nD τ).loc b))

/-- The arrays the kernel reads, as the region finds them. -/
abbrev gArr (c : Dev nD) : Mat 1600000 128 := fun i => V c main_v14 i
abbrev efTArr (c : Dev nD) : (⟨2, ![7, 1600000]⟩ : Shape).Idx → EReal := fun i => V c main_v6 i
abbrev nrmArr (c : Dev nD) : (⟨2, ![1600000, 1]⟩ : Shape).Idx → EReal := fun i => V c main_arg3 i
abbrev wArr (c : Dev nD) : Mat 7 128 := fun i => V c main_v1 i
abbrev beArr (c : Dev nD) : (⟨2, ![1, 128]⟩ : Shape).Idx → EReal := fun i => V c main_v3 i

/-- Their blocks at point `t`. -/
abbrev gBlk (c : Dev nD) (t : Fin cfg1.N) : Vec Ideal S6400x128 .f32 := iblk1 V c 0 t
abbrev efTBlk (c : Dev nD) (t : Fin cfg1.N) : Vec Ideal S7x6400 .bf16 := iblk1 V c 1 t
abbrev nrmBlk (c : Dev nD) (t : Fin cfg1.N) : Vec Ideal S6400x1 .f32 := iblk1 V c 2 t
abbrev wBlk (c : Dev nD) (t : Fin cfg1.N) : Vec Ideal S7x128 .f32 := iblk1 V c 3 t
abbrev beBlk (c : Dev nD) (t : Fin cfg1.N) : Vec Ideal S1x128 .f32 := iblk1 V c 4 t

/-- The edge messages of the arrays the region finds. -/
abbrev msgs (c : Dev nD) : Mat 1600000 128 :=
  edgeMsg (fun i => V c main_v14 i) (fun i => V c main_v6 (ix2 (i 1) (i 0))) (fun i => V c main_v1 i)
    (fun q => V c main_v3 (ix2 0 q)) (fun p => V c main_arg3 (ix2 p 0))

/-- The printed index maps, decided over the 250 points: the row windows (source rows, norms, the output) sit at block
    (t, 0), the transposed features at block (0, t), the weights and the bias at (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of the source-row block at `t` is the array's at row 6400·t + p. -/
theorem gBlk_at (c : Dev nD) (t : Fin cfg1.N) (p : Fin 6400) (q : Fin 128) (r : Fin 1600000)
    (hr : r.val = t.val * 6400 + p.val) : gBlk V c t (ix2 p q) = gArr V c (ix2 r q) := by
  obtain ⟨e0, e1, -⟩ := block_indices t
  show V c main_v14 (((cfg1.win 0).blk t).view.emb (ix2 p q)) = V c main_v14 (ix2 r q)
  refine congrArg (V c main_v14) (funext fun a => Fin.ext ?_)
  match a with
  | ⟨0, _⟩ => show win1_0.index t (0 : Fin 2) * 6400 + 1 * p.val = r.val; omega
  | ⟨1, _⟩ => show win1_0.index t (1 : Fin 2) * 128 + 1 * q.val = q.val; omega

/-- Entry (κ, p) of the transposed-feature block at `t` is the array's at column 6400·t + p. -/
theorem efTBlk_at (c : Dev nD) (t : Fin cfg1.N) (κ : Fin 7) (p : Fin 6400) (r : Fin 1600000)
    (hr : r.val = t.val * 6400 + p.val) : efTBlk V c t (ix2 κ p) = efTArr V c (ix2 κ r) := by
  obtain ⟨-, -, e0, e1, -⟩ := block_indices t
  show V c main_v6 (((cfg1.win 1).blk t).view.emb (ix2 κ p)) = V c main_v6 (ix2 κ r)
  refine congrArg (V c main_v6) (funext fun a => Fin.ext ?_)
  match a with
  | ⟨0, _⟩ => show win1_1.index t (0 : Fin 2) * 7 + 1 * κ.val = κ.val; omega
  | ⟨1, _⟩ => show win1_1.index t (1 : Fin 2) * 6400 + 1 * p.val = r.val; omega

/-- Entry (p, 0) of the norm block at `t` is the array's at row 6400·t + p. -/
theorem nrmBlk_at (c : Dev nD) (t : Fin cfg1.N) (p : Fin 6400) (r : Fin 1600000)
    (hr : r.val = t.val * 6400 + p.val) : nrmBlk V c t (ix2 p (0 : Fin 1)) = nrmArr V c (ix2 r (0 : Fin 1)) := by
  obtain ⟨-, -, -, -, e0, e1, -⟩ := block_indices t
  show V c main_arg3 (((cfg1.win 2).blk t).view.emb (ix2 p (0 : Fin 1))) = V c main_arg3 (ix2 r (0 : Fin 1))
  refine congrArg (V c main_arg3) (funext fun a => Fin.ext ?_)
  match a with
  | ⟨0, _⟩ => show win1_2.index t (0 : Fin 2) * 6400 + 1 * p.val = r.val; omega
  | ⟨1, _⟩ => show win1_2.index t (1 : Fin 2) * 1 + 1 * 0 = 0; omega

/-- The weights' block is the whole array at every point. -/
theorem wBlk_at (c : Dev nD) (t : Fin cfg1.N) (κ : Fin 7) (q : Fin 128) : wBlk V c t (ix2 κ q) = wArr V c (ix2 κ q) := by
  obtain ⟨-, -, -, -, -, -, e0, e1, -⟩ := block_indices t
  show V c main_v1 (((cfg1.win 3).blk t).view.emb (ix2 κ q)) = V c main_v1 (ix2 κ q)
  refine congrArg (V c main_v1) (funext fun a => Fin.ext ?_)
  match a with
  | ⟨0, _⟩ => show win1_3.index t (0 : Fin 2) * 7 + 1 * κ.val = κ.val; omega
  | ⟨1, _⟩ => show win1_3.index t (1 : Fin 2) * 128 + 1 * q.val = q.val; omega

/-- The bias's block is the whole array at every point. -/
theorem beBlk_at (c : Dev nD) (t : Fin cfg1.N) (q : Fin 128) : beBlk V c t (ix2 (0 : Fin 1) q) = beArr V c (ix2 (0 : Fin 1) q) := by
  obtain ⟨-, -, -, -, -, -, -, -, e0, e1, -⟩ := block_indices t
  show V c main_v3 (((cfg1.win 4).blk t).view.emb (ix2 (0 : Fin 1) q)) = V c main_v3 (ix2 (0 : Fin 1) q)
  refine congrArg (V c main_v3) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## What a point writes back -/

/-- Entry (p, q) of what point `t` stores is the edge message at row r = 6400·t + p: each block read where it lies in its
    array, the column sum over the feature block being the specification's row sum over the un-transposed features. -/
theorem point_value (c : Dev nD) (t : Fin cfg1.N) (p : Fin 6400) (q : Fin 128) (r : Fin 1600000)
    (hr : r.val = t.val * 6400 + p.val) :
    k1_pay1 (F := Ideal) (gBlk V c t) (efTBlk V c t) (wBlk V c t) (beBlk V c t) (nrmBlk V c t) (ix2 p q)
      = msgs V c (ix2 r q) := by
  refine (message_at (gBlk V c t) (efTBlk V c t) (wBlk V c t) (beBlk V c t) (nrmBlk V c t) p q).trans ?_
  have hdot : colDot (fun i => efTBlk V c t i) (fun i => wBlk V c t i) p q
      = rowDot (fun i : (⟨2, ![1600000, 7]⟩ : Shape).Idx => efTArr V c (ix2 (i 1) (i 0))) (fun i => wArr V c i) r q := by
    show (∑ κ : Fin 7, efTBlk V c t (ix2 κ p) * wBlk V c t (ix2 κ q)) = ∑ κ : Fin 7, efTArr V c (ix2 κ r) * wArr V c (ix2 κ q)
    exact Finset.sum_congr rfl fun κ _ => by rw [efTBlk_at V c t κ p r hr, wBlk_at V c t κ q]
  show nrmBlk V c t (ix2 p (0 : Fin 1))
      * max (gBlk V c t (ix2 p q) + (colDot (fun i => efTBlk V c t i) (fun i => wBlk V c t i) p q + beBlk V c t (ix2 (0 : Fin 1) q)))
          (Ideal.ofBits .f32 0x00000000#32)
    = nrmArr V c (ix2 r (0 : Fin 1))
      * max (gArr V c (ix2 r q)
          + (rowDot (fun i : (⟨2, ![1600000, 7]⟩ : Shape).Idx => efTArr V c (ix2 (i 1) (i 0))) (fun i => wArr V c i) r q
             + beArr V c (ix2 (0 : Fin 1) q)))
          (Ideal.ofBits .f32 0x00000000#32)
  rw [hdot, gBlk_at V c t p q r hr, nrmBlk_at V c t p r hr, beBlk_at V c t q]

/-- WHAT POINT `t` WRITES BACK is block `t` of the edge messages. -/
theorem flushed_eq (c : Dev nD) (t : Fin cfg1.N) :
    (dat1 (F := Ideal) V c).flushed 5 t = ((cfg1.win 5).blk t).view.read (Elt Ideal) (msgs V c) := by
  show (cfg1.win 5).cut (grid1.coords t) ((dat1 (F := Ideal) V c).after 5 t) = _
  rw [after1_5]
  unfold out1_5
  rw [View.canon_unit_zero zero_offsets]
  simp only [View.ld_unit_zero (S := S6400x128) zero_offsets, View.ld_unit_zero (S := S7x6400) zero_offsets,
    View.ld_unit_zero (S := S7x128) zero_offsets, View.ld_unit_zero (S := S1x128) zero_offsets,
    View.ld_unit_zero (S := S6400x1) zero_offsets]
  obtain ⟨-, -, -, -, -, -, -, -, -, -, e0, e1⟩ := block_indices t
  have ht : t.val < 250 := Nat.lt_of_lt_of_eq t.isLt N_1
  funext j
  obtain ⟨p, q, rfl⟩ : ∃ (p : Fin 6400) (q : Fin 128), j = ix2 p q := ⟨j 0, j 1, eq_ix2 j⟩
  show k1_pay1 (F := Ideal) (gBlk V c t) (efTBlk V c t) (wBlk V c t) (beBlk V c t) (nrmBlk V c t) (ix2 p q)
    = msgs V c (((cfg1.win 5).blk t).view.emb (ix2 p q))
  refine (point_value V c t p q ⟨t.val * 6400 + p.val, by have := p.isLt; omega⟩ rfl).trans ?_
  refine congrArg (msgs V c) (funext fun a => Fin.ext ?_)
  match a with
  | ⟨0, _⟩ => show t.val * 6400 + p.val = win1_5.index t (0 : Fin 2) * 6400 + 1 * p.val; omega
  | ⟨1, _⟩ => show q.val = win1_5.index t (1 : Fin 2) * 128 + 1 * q.val; omega

/-! ## From the blocks to the array -/

/-- An index of the output array is in point `t`'s block iff each coordinate is in the block's range on its axis. -/
theorem mem_block (t : Fin cfg1.N) (i : S1600000x128.Idx) :
    i ∈ ((cfg1.win 5).blk t).view.set
      ↔ ∀ a : Fin 2, win1_5.index t a * S6400x128.size a ≤ (i a).val ∧ (i a).val < win1_5.index t a * S6400x128.size a + S6400x128.size a := by
  show i ∈ ((View.whole main_v15).slice (win1_5.rect t)).set ↔ _
  rw [View.set_slice_whole, Rect.mem_set_unit]
  exact Iff.rfl

/-- Every index of the output array is in the block of the point that holds its row: point (row / 6400). -/
theorem covered (i : S1600000x128.Idx) :
    ∃ t : Fin cfg1.N, (cfg1.win 5).flush t = true ∧ i ∈ ((cfg1.win 5).blk t).view.set := by
  have hi0 : (i 0).val < 1600000 := (i 0).isLt
  have hi1 : (i 1).val < 128 := (i 1).isLt
  obtain ⟨t, ht⟩ : ∃ t : Fin cfg1.N, t.val = (i 0).val / 6400 :=
    ⟨⟨(i 0).val / 6400, by rw [show cfg1.N = 250 from N_1]; omega⟩, rfl⟩
  obtain ⟨-, -, -, -, -, -, -, -, -, -, e0, e1⟩ := block_indices t
  refine ⟨t, flush1_5 t, ?_⟩
  rw [mem_block]
  intro a
  match a with
  | ⟨0, _⟩ => show win1_5.index t (0 : Fin 2) * 6400 ≤ (i 0).val ∧ (i 0).val < win1_5.index t (0 : Fin 2) * 6400 + 6400; omega
  | ⟨1, _⟩ => show win1_5.index t (1 : Fin 2) * 128 ≤ (i 1).val ∧ (i 1).val < win1_5.index t (1 : Fin 2) * 128 + 128; omega

/-- THE ARRAY after the run: the edge messages of the arrays the region found, everywhere. -/
theorem edgeMsg_final (c : Dev nD) : (dat1 (F := Ideal) V c).arrAt 5 cfg1.N
    = edgeMsg (fun i => V c main_v14 i) (fun i => V c main_v6 (ix2 (i 1) (i 0))) (fun i => V c main_v1 i)
        (fun q => V c main_v3 (ix2 0 q)) (fun p => V c main_arg3 (ix2 p 0)) :=
  (dat1 (F := Ideal) V c).arrAt_eq_of_cover 5 (msgs V c) (fun t _ => flushed_eq V c t) covered

end Cert.KernelIdeal.EdgeValue

end
-- ==== Proof.HostGlue.lean ====
/-
  The kernel program's host operations, read: what each region finds in the arrays it stages, and what the last
  stretch makes of the two regions' outputs.

  Before the first region the host transposes the two weight matrices, adds a unit axis to the two biases and to the
  degrees, and transposes the edge features; none of this changes a value, only where it sits: the transposed weights
  at (κ, q) are the weights at (q, κ), the bias row at (0, q) is the bias at q, the degree column at (p, 0) is the
  degree at p, the transposed edge features at (κ, e) are the edge features at (e, κ). Between the regions the host
  wraps the negative source indices and gathers the node layer's rows at them; after the second region it widens the
  messages (the identity on the extended reals), adds them into their destination rows of a zero array, and adds the
  root term. So the result is the scatter-add of the specification's messages plus its root term.
-/
import proofs.«419464_j20864951124336_3_alg».proof.Proof.Gen.KernelIdeal.Frame
import proofs.«419464_j20864951124336_3_alg».proof.Proof.GraphConvSpec
import proofs.«419464_j20864951124336_3_alg».proof.Proof.NodeValue
import proofs.«419464_j20864951124336_3_alg».proof.Proof.EdgeValue
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostGlue

open Cert.KernelIdeal Cert.KernelIdeal.Gen Cert.GraphConv
open Idealize.ShloMosaic Idealize.ShloMosaic.TcCoe Idealize.ShloMosaic.ValueIdx Idealize.ShloMosaic.SageSpec Idealize.SL.Sem
open Idealize.ShloMosaic.StableHlo

variable (m : (ℓ : Loc nD τ sig) → Buf (Elt Ideal) ℓ) (ρ : Dev nD → PrngReg)

/-! ## After the first stretch: the arguments as launched, the re-laid weights, biases, degrees and edge features -/

theorem w1_arg0 (c : Dev nD) : W1 m ρ c (Proc.devRef .tc main_arg0) = m ((c : Thread nD τ).loc main_arg0) := by
  show StableHlo.after hostOps0 (W0 m ρ c) (Proc.devRef .tc main_arg0) = _
  after_results
theorem w1_arg3 (c : Dev nD) : W1 m ρ c (Proc.devRef .tc main_arg3) = m ((c : Thread nD τ).loc main_arg3) := by
  show StableHlo.after hostOps0 (W0 m ρ c) (Proc.devRef .tc main_arg3) = _
  after_results
theorem w1_arg4 (c : Dev nD) : W1 m ρ c (Proc.devRef .tc main_arg4) = m ((c : Thread nD τ).loc main_arg4) := by
  show StableHlo.after hostOps0 (W0 m ρ c) (Proc.devRef .tc main_arg4) = _
  after_results
theorem w1_arg5 (c : Dev nD) : W1 m ρ c (Proc.devRef .tc main_arg5) = m ((c : Thread nD τ).loc main_arg5) := by
  show StableHlo.after hostOps0 (W0 m ρ c) (Proc.devRef .tc main_arg5) = _
  after_results
theorem w1_arg10 (c : Dev nD) : W1 m ρ c (Proc.devRef .tc main_arg10) = m ((c : Thread nD τ).loc main_arg10) := by
  show StableHlo.after hostOps0 (W0 m ρ c) (Proc.devRef .tc main_arg10) = _
  after_results

/-- The transposed node weights at (κ, q) are the weights at (q, κ). -/
theorem w1_Wt (c : Dev nD) (i : S128x128.Idx) :
    W1 m ρ c (Proc.devRef .tc main_v0) i = m ((c : Thread nD τ).loc main_arg6) (ix2 (i 1) (i 0)) := by
  have e : W1 m ρ c (Proc.devRef .tc main_v0)
      = transpose S128x128 [1, 0] (m ((c : Thread nD τ).loc main_arg6)) transposes_S128x128_S128x128_1_0 := by
    show StableHlo.after hostOps0 (W0 m ρ c) (Proc.devRef .tc main_v0) = _
    after_results
  rw [e]
  exact transpose_apply [1, 0] _ transposes_S128x128_S128x128_1_0 i (ix2 (i 1) (i 0)) (fun b => match b with
    | ⟨0, _⟩ => rfl
    | ⟨1, _⟩ => rfl)

/-- The transposed edge weights at (κ, q) are the edge weights at (q, κ). -/
theorem w1_Wet (c : Dev nD) (i : S7x128.Idx) :
    W1 m ρ c (Proc.devRef .tc main_v1) i = m ((c : Thread nD τ).loc main_arg8) (ix2 (i 1) (i 0)) := by
  have e : W1 m ρ c (Proc.devRef .tc main_v1)
      = transpose S7x128 [1, 0] (m ((c : Thread nD τ).loc main_arg8)) transposes_S128x7_S7x128_1_0 := by
    show StableHlo.after hostOps0 (W0 m ρ c) (Proc.devRef .tc main_v1) = _
    after_results
  rw [e]
  exact transpose_apply [1, 0] _ transposes_S128x7_S7x128_1_0 i (ix2 (i 1) (i 0)) (fun b => match b with
    | ⟨0, _⟩ => rfl
    | ⟨1, _⟩ => rfl)

/-- The node bias as a row: at (0, q) the bias at q. -/
theorem w1_bias (c : Dev nD) (q : Fin 128) :
    W1 m ρ c (Proc.devRef .tc main_v2) (ix2 (0 : Fin 1) q) = m ((c : Thread nD τ).loc main_arg7) (ix1 q) := by
  have e : W1 m ρ c (Proc.devRef .tc main_v2)
      = shapeCast S1x128 (m ((c : Thread nD τ).loc main_arg7)) shapeCasts_S128_S1x128 := by
    show StableHlo.after hostOps0 (W0 m ρ c) (Proc.devRef .tc main_v2) = _
    after_results; rfl
  rw [e]
  exact shapeCast_a_1a_apply _ shapeCasts_S128_S1x128 0 q

/-- The edge bias as a row: at (0, q) the bias at q. -/
theorem w1_ebias (c : Dev nD) (q : Fin 128) :
    W1 m ρ c (Proc.devRef .tc main_v3) (ix2 (0 : Fin 1) q) = m ((c : Thread nD τ).loc main_arg9) (ix1 q) := by
  have e : W1 m ρ c (Proc.devRef .tc main_v3)
      = shapeCast S1x128 (m ((c : Thread nD τ).loc main_arg9)) shapeCasts_S128_S1x128 := by
    show StableHlo.after hostOps0 (W0 m ρ c) (Proc.devRef .tc main_v3) = _
    after_results; rfl
  rw [e]
  exact shapeCast_a_1a_apply _ shapeCasts_S128_S1x128 0 q

/-- The degrees as a column: at (p, 0) the degree at p. -/
theorem w1_deg (c : Dev nD) (p : Fin 100000) :
    W1 m ρ c (Proc.devRef .tc main_v4) (ix2 p (0 : Fin 1)) = m ((c : Thread nD τ).loc main_arg2) (ix1 p) := by
  have e : W1 m ρ c (Proc.devRef .tc main_v4)
      = shapeCast S100000x1 (m ((c : Thread nD τ).loc main_arg2)) shapeCasts_S100000_S100000x1 := by
    show StableHlo.after hostOps0 (W0 m ρ c) (Proc.devRef .tc main_v4) = _
    after_results; rfl
  rw [e]
  exact shapeCast_apply _ shapeCasts_S100000_S100000x1 _ _ (by
    rw [Shape.rowMajor_val_two, Shape.rowMajor_val_one]
    show p.val = p.val * 1 + 0
    omega)

/-- The transposed edge features, narrowed (the identity on the extended reals): at (κ, e) the edge features at (e, κ). -/
theorem w1_efT (c : Dev nD) (i : S7x1600000.Idx) :
    W1 m ρ c (Proc.devRef .tc main_v6) i = m ((c : Thread nD τ).loc main_arg1) (ix2 (i 1) (i 0)) := by
  show StableHlo.after hostOps0 (W0 m ρ c) (Proc.devRef .tc main_v6) i = _
  after_results
  exact transpose_apply [1, 0] _ transposes_S1600000x7_S7x1600000_1_0 i (ix2 (i 1) (i 0)) (fun b => match b with
    | ⟨0, _⟩ => rfl
    | ⟨1, _⟩ => rfl)

/-! ## The specification's arguments, read off the launch memory -/

/-- The node layer of the launch memory's arrays. -/
def hLaunch (c : Dev nD) : Mat 100000 128 :=
  nodeLin (fun i => (m ((c : Thread nD τ).loc main_arg0)) i) (fun i => (m ((c : Thread nD τ).loc main_arg6)) (ix2 (i 1) (i 0))) (fun q => (m ((c : Thread nD τ).loc main_arg7)) (ix1 q))

/-- What the first region finds is the launch memory's arrays, re-laid: its node layer is the launch memory's. -/
theorem hEntry_eq (c : Dev nD) : NodeValue.hEntry (V1 m ρ) c = hLaunch m c := by
  unfold NodeValue.hEntry hLaunch
  exact congr (congr (congrArg nodeLin (funext fun i => congrFun (w1_arg0 m ρ c) i)) (funext fun i => w1_Wt m ρ c i))
    (funext fun q => w1_bias m ρ c q)

/-! ## After the first region: its two outputs, every other array as entered -/

theorem w2_h (c : Dev nD) : W2 m ρ c (Proc.devRef .tc main_v7_0) = hLaunch m c :=
  ((W2_arr m ρ c 5).trans (NodeValue.nodeLin_final (V1 m ρ) c)).trans (hEntry_eq m ρ c)

theorem w2_root (c : Dev nD) : W2 m ρ c (Proc.devRef .tc main_v7_1)
    = rootTerm (hLaunch m c) (fun q => (m ((c : Thread nD τ).loc main_arg10)) (ix2 (0 : Fin 1) q)) (fun p => (m ((c : Thread nD τ).loc main_arg2)) (ix1 p)) := by
  refine ((W2_arr m ρ c 6).trans (NodeValue.rootTerm_final (V1 m ρ) c)).trans ?_
  exact congr (congr (congrArg rootTerm (hEntry_eq m ρ c)) (funext fun q => congrFun (w1_arg10 m ρ c) (ix2 (0 : Fin 1) q)))
    (funext fun p => w1_deg m ρ c p)

theorem w2_arg3 (c : Dev nD) : W2 m ρ c (Proc.devRef .tc main_arg3) = (m ((c : Thread nD τ).loc main_arg3)) :=
  (W2_of_ne m ρ c main_arg3 (by decide)).trans (w1_arg3 m ρ c)
theorem w2_arg4 (c : Dev nD) : W2 m ρ c (Proc.devRef .tc main_arg4) = (m ((c : Thread nD τ).loc main_arg4)) :=
  (W2_of_ne m ρ c main_arg4 (by decide)).trans (w1_arg4 m ρ c)
theorem w2_arg5 (c : Dev nD) : W2 m ρ c (Proc.devRef .tc main_arg5) = (m ((c : Thread nD τ).loc main_arg5)) :=
  (W2_of_ne m ρ c main_arg5 (by decide)).trans (w1_arg5 m ρ c)
theorem w2_Wet (c : Dev nD) (i : S7x128.Idx) : W2 m ρ c (Proc.devRef .tc main_v1) i = (m ((c : Thread nD τ).loc main_arg8)) (ix2 (i 1) (i 0)) :=
  (congrFun (W2_of_ne m ρ c main_v1 (by decide)) i).trans (w1_Wet m ρ c i)
theorem w2_ebias (c : Dev nD) (q : Fin 128) : W2 m ρ c (Proc.devRef .tc main_v3) (ix2 (0 : Fin 1) q) = (m ((c : Thread nD τ).loc main_arg9)) (ix1 q) :=
  (congrFun (W2_of_ne m ρ c main_v3 (by decide)) _).trans (w1_ebias m ρ c q)
theorem w2_efT (c : Dev nD) (i : S7x1600000.Idx) : W2 m ρ c (Proc.devRef .tc main_v6) i = (m ((c : Thread nD τ).loc main_arg1)) (ix2 (i 1) (i 0)) :=
  (congrFun (W2_of_ne m ρ c main_v6 (by decide)) i).trans (w1_efT m ρ c i)

/-! ## After the second stretch: the gathered rows, every other array of the second region as before -/

theorem w3_gathered (c : Dev nD) : W3 m ρ c (Proc.devRef .tc main_v14)
    = Host.gather gather_S100000x128_S1600000x1_S1600000x128_1_0_n_n_0_1_1128 (hLaunch m c) (broadcastInDim S1600000x1 ![0] bcast_S1600000_S1600000x1_0 (select (cmpi .slt (m ((c : Thread nD τ).loc main_arg4)) (broadcastInDim S1600000 ![] bcast_S_S1600000 (constantI S_ 32 0#32))) (addi (m ((c : Thread nD τ).loc main_arg4)) (broadcastInDim S1600000 ![] bcast_S_S1600000 (constantI S_ 32 100000#32))) (m ((c : Thread nD τ).loc main_arg4)))) := by
  have e : W3 m ρ c (Proc.devRef .tc main_v14)
      = Host.gather gather_S100000x128_S1600000x1_S1600000x128_1_0_n_n_0_1_1128 (W2 m ρ c (Proc.devRef .tc main_v7_0))
          (broadcastInDim S1600000x1 ![0] bcast_S1600000_S1600000x1_0 (select (cmpi .slt (W2 m ρ c (Proc.devRef .tc main_arg4)) (broadcastInDim S1600000 ![] bcast_S_S1600000 (constantI S_ 32 0#32))) (addi (W2 m ρ c (Proc.devRef .tc main_arg4)) (broadcastInDim S1600000 ![] bcast_S_S1600000 (constantI S_ 32 100000#32))) (W2 m ρ c (Proc.devRef .tc main_arg4)))) := by
    show StableHlo.after hostOps1 (W2 m ρ c) (Proc.devRef .tc main_v14) = _
    after_results
  rw [e, w2_h, w2_arg4]

theorem w3_arg3 (c : Dev nD) : W3 m ρ c (Proc.devRef .tc main_arg3) = (m ((c : Thread nD τ).loc main_arg3)) := by
  have e : W3 m ρ c (Proc.devRef .tc main_arg3) = W2 m ρ c (Proc.devRef .tc main_arg3) := by
    show StableHlo.after hostOps1 (W2 m ρ c) (Proc.devRef .tc main_arg3) = _
    after_results
  rw [e, w2_arg3]
theorem w3_arg5 (c : Dev nD) : W3 m ρ c (Proc.devRef .tc main_arg5) = (m ((c : Thread nD τ).loc main_arg5)) := by
  have e : W3 m ρ c (Proc.devRef .tc main_arg5) = W2 m ρ c (Proc.devRef .tc main_arg5) := by
    show StableHlo.after hostOps1 (W2 m ρ c) (Proc.devRef .tc main_arg5) = _
    after_results
  rw [e, w2_arg5]
theorem w3_root (c : Dev nD) : W3 m ρ c (Proc.devRef .tc main_v7_1)
    = rootTerm (hLaunch m c) (fun q => (m ((c : Thread nD τ).loc main_arg10)) (ix2 (0 : Fin 1) q)) (fun p => (m ((c : Thread nD τ).loc main_arg2)) (ix1 p)) := by
  have e : W3 m ρ c (Proc.devRef .tc main_v7_1) = W2 m ρ c (Proc.devRef .tc main_v7_1) := by
    show StableHlo.after hostOps1 (W2 m ρ c) (Proc.devRef .tc main_v7_1) = _
    after_results
  rw [e, w2_root]
theorem w3_Wet (c : Dev nD) (i : S7x128.Idx) : W3 m ρ c (Proc.devRef .tc main_v1) i = (m ((c : Thread nD τ).loc main_arg8)) (ix2 (i 1) (i 0)) := by
  have e : W3 m ρ c (Proc.devRef .tc main_v1) = W2 m ρ c (Proc.devRef .tc main_v1) := by
    show StableHlo.after hostOps1 (W2 m ρ c) (Proc.devRef .tc main_v1) = _
    after_results
  rw [e, w2_Wet]
theorem w3_ebias (c : Dev nD) (q : Fin 128) : W3 m ρ c (Proc.devRef .tc main_v3) (ix2 (0 : Fin 1) q) = (m ((c : Thread nD τ).loc main_arg9)) (ix1 q) := by
  have e : W3 m ρ c (Proc.devRef .tc main_v3) = W2 m ρ c (Proc.devRef .tc main_v3) := by
    show StableHlo.after hostOps1 (W2 m ρ c) (Proc.devRef .tc main_v3) = _
    after_results
  rw [e, w2_ebias]
theorem w3_efT (c : Dev nD) (i : S7x1600000.Idx) : W3 m ρ c (Proc.devRef .tc main_v6) i = (m ((c : Thread nD τ).loc main_arg1)) (ix2 (i 1) (i 0)) := by
  have e : W3 m ρ c (Proc.devRef .tc main_v6) = W2 m ρ c (Proc.devRef .tc main_v6) := by
    show StableHlo.after hostOps1 (W2 m ρ c) (Proc.devRef .tc main_v6) = _
    after_results
  rw [e, w2_efT]

/-! ## After the second region: its output, the messages -/

/-- The messages of the launch memory's arrays: the node layer's rows gathered at the wrapped sources, the edge layer,
    the rectifier, the norm. -/
def msgLaunch (c : Dev nD) : Mat 1600000 128 :=
  edgeMsg (fun i => Host.gather gather_S100000x128_S1600000x1_S1600000x128_1_0_n_n_0_1_1128 (hLaunch m c) (broadcastInDim S1600000x1 ![0] bcast_S1600000_S1600000x1_0 (select (cmpi .slt (m ((c : Thread nD τ).loc main_arg4)) (broadcastInDim S1600000 ![] bcast_S_S1600000 (constantI S_ 32 0#32))) (addi (m ((c : Thread nD τ).loc main_arg4)) (broadcastInDim S1600000 ![] bcast_S_S1600000 (constantI S_ 32 100000#32))) (m ((c : Thread nD τ).loc main_arg4)))) i)
    (fun i => (m ((c : Thread nD τ).loc main_arg1)) i) (fun i => (m ((c : Thread nD τ).loc main_arg8)) (ix2 (i 1) (i 0))) (fun q => (m ((c : Thread nD τ).loc main_arg9)) (ix1 q)) (fun p => (m ((c : Thread nD τ).loc main_arg3)) (ix2 p (0 : Fin 1)))

theorem w4_msg (c : Dev nD) : W4 m ρ c (Proc.devRef .tc main_v15) = msgLaunch m c := by
  refine ((W4_arr m ρ c 5).trans (EdgeValue.edgeMsg_final (V3 m ρ) c)).trans ?_
  unfold msgLaunch
  exact congr (congr (congr (congr (congrArg edgeMsg (funext fun i => congrFun (w3_gathered m ρ c) i))
      (funext fun i => (w3_efT m ρ c (ix2 (i 1) (i 0))).trans
        (congrArg (fun j : S1600000x7.Idx => (m ((c : Thread nD τ).loc main_arg1)) j) (eq_ix2 i).symm)))
      (funext fun i => w3_Wet m ρ c i)) (funext fun q => w3_ebias m ρ c q))
    (funext fun p => congrFun (w3_arg3 m ρ c) (ix2 p (0 : Fin 1)))

theorem w4_root (c : Dev nD) : W4 m ρ c (Proc.devRef .tc main_v7_1)
    = rootTerm (hLaunch m c) (fun q => (m ((c : Thread nD τ).loc main_arg10)) (ix2 (0 : Fin 1) q)) (fun p => (m ((c : Thread nD τ).loc main_arg2)) (ix1 p)) :=
  (W4_of_ne m ρ c main_v7_1 (by decide)).trans (w3_root m ρ c)
theorem w4_arg5 (c : Dev nD) : W4 m ρ c (Proc.devRef .tc main_arg5) = (m ((c : Thread nD τ).loc main_arg5)) :=
  (W4_of_ne m ρ c main_arg5 (by decide)).trans (w3_arg5 m ρ c)

/-! ## The result -/

/-- The result buffer after the last stretch: the messages, widened (the identity on the extended reals), added into
    their destination rows of a zero array, plus the root term. -/
theorem result_eq (c : Dev nD) : W5 m ρ c (Proc.devRef .tc main_v20)
    = addf (F := Ideal) (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (m ((c : Thread nD τ).loc main_arg5)))
          (msgLaunch m c))
        (rootTerm (hLaunch m c) (fun q => (m ((c : Thread nD τ).loc main_arg10)) (ix2 (0 : Fin 1) q)) (fun p => (m ((c : Thread nD τ).loc main_arg2)) (ix1 p))) := by
  have e : W5 m ρ c (Proc.devRef .tc main_v20)
      = addf (F := Ideal) (Host.scatterAdd scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 (W4 m ρ c (Proc.devRef .tc main_arg5)))
            (extf (F := Ideal) .f32 (W4 m ρ c (Proc.devRef .tc main_v15)) bitsLt_bf16_f32))
          (W4 m ρ c (Proc.devRef .tc main_v7_1)) := by
    show StableHlo.after hostOps2 (W4 m ρ c) (Proc.devRef .tc main_v20) = _
    after_results
  rw [e, w4_arg5, w4_msg, w4_root]
  rfl

end Cert.KernelIdeal.HostGlue

end
-- ==== Proof.RefValue.lean ====
import proofs.«419464_j20864951124336_3_alg».proof.Proof.Gen.ReferenceIdeal.Read
import proofs.«419464_j20864951124336_3_alg».proof.Proof.GraphConvSpec
import Idealize.ShloMosaic.Lib.ValueIdx
import Idealize.ShloMosaic.PureOps.Ideal.Laws

/-
  The reference's three stages, read element by element, are the specification's: the node layer is the row-by-column
  sum against the transposed weights plus the bias; the root term is that layer shifted by the root embedding, rectified
  and divided by the degree; an edge's message is the gathered row plus the edge layer, rectified and scaled by the norm.
  Every layout operation on the way (a transpose, a broadcast) only re-reads its operand at a permuted or dropped
  coordinate, so each stage is one chain of index equations followed by the arithmetic of the extended reals.
-/

noncomputable section

namespace Cert.ReferenceIdeal.RefValue

open Cert.ReferenceIdeal Cert.ReferenceIdeal.Read Cert.GraphConv
open Idealize.ShloMosaic Idealize.ShloMosaic.ValueIdx Idealize.ShloMosaic.SageSpec

theorem nodeLin_ref (x0 : (⟨S100000x128, .f32⟩ : BufTy).Contents (Elt Ideal)) (x6 : (⟨S128x128, .f32⟩ : BufTy).Contents (Elt Ideal))
    (x7 : (⟨S128, .f32⟩ : BufTy).Contents (Elt Ideal)) :
    val_main_v4 (F := Ideal) x0 x6 x7 = nodeLin (fun i => x0 i) (fun i => x6 (ix2 (i 1) (i 0))) (fun q => x7 (ix1 q)) := by
  funext i
  -- the left operand of the product is read at (row, κ), the transposed weights at (column, κ), the bias at the column
  have el : ∀ k : Fin 128, lidx_main_v1 i k = ix2 (i 0) k := fun k => funext fun a => Fin.ext (by
    match a with
    | ⟨0, _⟩ => rfl
    | ⟨1, _⟩ => rfl)
  have er : ∀ k : Fin 128, idx_main_v0 (ridx_main_v1 i k) = ix2 (i 1) k := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply]
  simp only [val_main_v0_apply, el, er, eb, Ideal.addf_def]
  unfold nodeLin linF rowDot
  rfl

theorem rootTerm_ref (x0 : (⟨S100000x128, .f32⟩ : BufTy).Contents (Elt Ideal)) (x2 : (⟨S100000, .f32⟩ : BufTy).Contents (Elt Ideal))
    (x6 : (⟨S128x128, .f32⟩ : BufTy).Contents (Elt Ideal)) (x7 : (⟨S128, .f32⟩ : BufTy).Contents (Elt Ideal))
    (x10 : (⟨S1x128, .f32⟩ : BufTy).Contents (Elt Ideal)) :
    val_main_v29 (F := Ideal) x0 x2 x6 x7 x10
      = rootTerm (fun i => val_main_v4 (F := Ideal) x0 x6 x7 i) (fun q => x10 (ix2 0 q)) (fun p => x2 (ix1 p)) := by
  funext i
  -- the root embedding is read at (0, column), the degree at the row, the rectifier's zero at the scalar's one index
  have er : idx_main_v24 i = ix2 0 (i 1) := funext fun a => Fin.ext (by
    match a with
    | ⟨0, _⟩ => rfl
    | ⟨1, _⟩ => rfl)
  have ed : idx_main_v27 (idx_main_v28 i) = ix1 (i 0) := funext fun a => Fin.ext (by
    match a with
    | ⟨0, _⟩ => rfl)
  rw [val_main_v29_apply, val_main_v26_apply, val_main_v25_apply, val_main_v24_apply, val_main_call1_v0_apply,
    val_main_call1_cst_apply, val_main_v28_apply, val_main_v27_apply]
  simp only [er, ed, Ideal.hostDivf_def, Ideal.maximumf_def, Ideal.addf_def, Ideal.ofBits_def]
  unfold rootTerm
  rfl

theorem edgeMsg_ref (x0 : (⟨S100000x128, .f32⟩ : BufTy).Contents (Elt Ideal)) (x1 : (⟨S1600000x7, .f32⟩ : BufTy).Contents (Elt Ideal))
    (x3 : (⟨S1600000x1, .f32⟩ : BufTy).Contents (Elt Ideal)) (x4 : (⟨S1600000, .i32⟩ : BufTy).Contents (Elt Ideal))
    (x6 : (⟨S128x128, .f32⟩ : BufTy).Contents (Elt Ideal)) (x7 : (⟨S128, .f32⟩ : BufTy).Contents (Elt Ideal))
    (x8 : (⟨S128x7, .f32⟩ : BufTy).Contents (Elt Ideal)) (x9 : (⟨S128, .f32⟩ : BufTy).Contents (Elt Ideal)) :
    val_main_v20 (F := Ideal) x0 x1 x3 x4 x6 x7 x8 x9
      = edgeMsg (fun i => val_main_v16 (F := Ideal) x0 x4 x6 x7 i) (fun i => x1 i) (fun i => x8 (ix2 (i 1) (i 0)))
          (fun q => x9 (ix1 q)) (fun p => x3 (ix2 p 0)) := by
  funext i
  -- the edge features are read at (edge, κ), the transposed edge weights at (column, κ), the bias at the column, the
  -- norm at (edge, 0)
  have el : ∀ k : Fin 7, lidx_main_v6 i k = ix2 (i 0) k := fun k => funext fun a => Fin.ext (by
    match a with
    | ⟨0, _⟩ => rfl
    | ⟨1, _⟩ => rfl)
  have er : ∀ k : Fin 7, idx_main_v5 (ridx_main_v6 i k) = ix2 (i 1) k := fun k => funext fun a => Fin.ext (by
    match a with
    | ⟨0, _⟩ => rfl
    | ⟨1, _⟩ => rfl)
  have eb : idx_main_v7 (idx_main_v8 i) = ix1 (i 1) := funext fun a => Fin.ext (by
    match a with
    | ⟨0, _⟩ => rfl)
  have en : idx_main_v19 i = ix2 (i 0) 0 := funext fun a => Fin.ext (by
    match a with
    | ⟨0, _⟩ => rfl
    | ⟨1, _⟩ => rfl)
  rw [val_main_v20_apply, val_main_v19_apply, val_main_v18_apply, val_main_v17_apply, val_main_v9_apply, val_main_v6_apply,
    val_main_v8_apply, val_main_v7_apply, val_main_call0_v0_apply, val_main_call0_cst_apply]
  simp only [val_main_v5_apply, el, er, eb, en, Ideal.mulf_def, Ideal.maximumf_def, Ideal.addf_def, Ideal.ofBits_def]
  unfold edgeMsg rowDot
  rfl

end Cert.ReferenceIdeal.RefValue

end
-- ==== Proof.Agree.lean ====
/-
  The two programs' results are one array. The kernel program's result is the scatter-add of the specification's
  messages plus its root term (the host glue, over the two regions' whole-array values); the reference's stages are the
  same specification (its node layer, its root term, its messages over the same gathered rows), under the same
  scatter-add of the same destination indices into the same zero array, and the same final sum.
-/
import proofs.«419464_j20864951124336_3_alg».proof.Proof.HostGlue
import proofs.«419464_j20864951124336_3_alg».proof.Proof.RefValue
import proofs.«419464_j20864951124336_3_alg».proof.Proof.Gen.ReferenceIdeal.Read

set_option maxRecDepth 16384

noncomputable section

namespace Cert.Agree

open Idealize.ShloMosaic Idealize.ShloMosaic.TcCoe Idealize.ShloMosaic.ValueIdx Idealize.ShloMosaic.SageSpec Idealize.SL.Sem
open Cert.GraphConv

/-- The kernel program's result buffer holds the reference's result term of the same argument arrays. -/
theorem value_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v20)
      = Cert.ReferenceIdeal.Read.val_main_v30 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [Cert.KernelIdeal.HostGlue.result_eq]
  unfold Cert.ReferenceIdeal.Read.val_main_v30 Cert.ReferenceIdeal.Read.val_main_v23
  rw [Cert.ReferenceIdeal.RefValue.edgeMsg_ref, Cert.ReferenceIdeal.RefValue.rootTerm_ref]
  unfold Cert.ReferenceIdeal.Read.val_main_v16
  rw [Cert.ReferenceIdeal.RefValue.nodeLin_ref]
  rfl

end Cert.Agree

end
-- ==== Proof.lean ====
/-
  The certificate of the graph convolution: the kernel program, its idealization and the reference all run, and at the
  extended reals the idealized kernel and the reference end with one result.

  The kernel program computes the node layer h = x · Wᵀ + b and the root term max (h + r) 0 / deg in a first
  pallas_call over blocks of 4000 rows, gathers h's rows at the edges' sources on the host, computes the messages
  norm · max (h[src] + (ef · Weᵀ + be)) 0 in a second pallas_call over blocks of 6400 edges (the edge features held
  transposed, the product contracting their leading axis), and on the host adds the messages into their destination
  rows and adds the root term. The reference computes the same arrays with whole-array host operations. On the
  extended reals a change of float format is the identity, a matrix product into a zero accumulator is the plain sum,
  and the blocks of each pallas_call's output are the restrictions of one whole-array function, so every array of the
  kernel program is the reference's, entry by entry; no law beyond reading both sides at an index is needed, and the
  precondition is never opened. The ideal pass rewrote nothing, so its conjunct is trivial.

  The three frames are the generated ones (the reference's is its generated run with the result dropped).
-/
import proofs.«419464_j20864951124336_3_alg».proof.Defs
import proofs.«419464_j20864951124336_3_alg».proof.Proof.Gen.Kernel
import proofs.«419464_j20864951124336_3_alg».proof.Proof.Gen.Kernel.Skeleton
import proofs.«419464_j20864951124336_3_alg».proof.Proof.Gen.Kernel.Launch
import proofs.«419464_j20864951124336_3_alg».proof.Proof.Gen.Kernel.Points
import proofs.«419464_j20864951124336_3_alg».proof.Proof.Gen.Kernel.Frame
import proofs.«419464_j20864951124336_3_alg».proof.Proof.Gen.KernelIdeal
import proofs.«419464_j20864951124336_3_alg».proof.Proof.Gen.KernelIdeal.Skeleton
import proofs.«419464_j20864951124336_3_alg».proof.Proof.Gen.KernelIdeal.Launch
import proofs.«419464_j20864951124336_3_alg».proof.Proof.Gen.KernelIdeal.Points
import proofs.«419464_j20864951124336_3_alg».proof.Proof.Gen.KernelIdeal.Frame
import proofs.«419464_j20864951124336_3_alg».proof.Proof.Gen.ReferenceIdeal
import proofs.«419464_j20864951124336_3_alg».proof.Proof.Gen.ReferenceIdeal.Run
import proofs.«419464_j20864951124336_3_alg».proof.Proof.Gen.ReferenceIdeal.Read
import proofs.«419464_j20864951124336_3_alg».proof.Proof.Gen.Pre_finite_inputs
import proofs.«419464_j20864951124336_3_alg».proof.Proof.KernelRun
import proofs.«419464_j20864951124336_3_alg».proof.Proof.Agree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run from memories that agree on the arguments; the kernel program's result buffer ends at what the
    fold through its segments leaves there, which is the reference's result term of the same arguments. -/
theorem algebraic : Cert.algebraic_KernelIdeal_ReferenceIdeal := by
  intro m ρ m' ρ' _ hagree
  refine ⟨fun c => Cert.KernelIdeal.Gen.W5 m ρ c (Proc.devRef .tc Cert.KernelIdeal.main_v20),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.Agree.value_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
